-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S256x256 : Shape := ⟨2, ![256, 256]⟩
abbrev S256 : Shape := ⟨1, ![256]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S32x256x56x56 .f32) (main_arg1 : FVec F S256x256 .f32) (main_arg2 : FVec F S256 .f32) (main_arg3 : FVec F S256 .f32) (main_arg4 : FVec F S256 .f32) (main_arg5 : FVec F S256 .f32) (main_arg6 : FVec F S256 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S32x256x56x56 : Shape := ⟨4, ![32, 256, 56, 56]⟩
abbrev S256x256 : Shape := ⟨2, ![256, 256]⟩
abbrev S256 : Shape := ⟨1, ![256]⟩
abbrev S32x256x3136 : Shape := ⟨3, ![32, 256, 3136]⟩
abbrev S_ : Shape := ⟨0, ![]⟩
abbrev S256x1 : Shape := ⟨2, ![256, 1]⟩
abbrev S2x256x3136 : Shape := ⟨3, ![2, 256, 3136]⟩
abbrev S1x256x3136 : Shape := ⟨3, ![1, 256, 3136]⟩
abbrev S256x3136 : Shape := ⟨2, ![256, 3136]⟩
abbrev S256x128 : Shape := ⟨2, ![256, 128]⟩
abbrev S256x64 : Shape := ⟨2, ![256, 64]⟩

abbrev nBuf : Space → Nat
  | .hbm => 23
  | .vmem => 8
  | .smem => 0
  | _ => 0

abbrev bufTy : (tb : Table) → Fin (tcTables nBuf tb) → BufTy
  | .hbm, ⟨0, _⟩ => ⟨S32x256x56x56, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S32x256x3136, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x1, .f32⟩
  | .hbm, ⟨21, _⟩ => ⟨S32x256x3136, .f32⟩
  | .hbm, ⟨22, _⟩ => ⟨S32x256x56x56, .f32⟩
  | .local _ .vmem, ⟨0, _⟩ => ⟨S2x256x3136, .f32⟩
  | .local _ .vmem, ⟨1, _⟩ => ⟨S2x256x3136, .f32⟩
  | .local _ .vmem, ⟨2, _⟩ => ⟨S256x256, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S2x256x3136, .f32⟩
  | .local _ .vmem, ⟨7, _⟩ => ⟨S2x256x3136, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x256x3136 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x56x56_S32x256x3136 : S32x256x56x56.ShapeCasts S32x256x3136
  bcast_S_S256 : S_.BroadcastsInDim S256 (![] : Fin 0 → Fin S256.rank)
  shapeCasts_S256_S256x1 : S256.ShapeCasts S256x1
  bcast_S_S256x256 : S_.BroadcastsInDim S256x256 (![] : Fin 0 → Fin S256x256.rank)
  inb_S2x256x3136_S1x256x3136_0_0_0 : ∀ a, (![0, 0, 0] : Fin 3 → Nat) a + S1x256x3136.size a ≤ S2x256x3136.size a
  h_S1x256x3136 : 0 < S1x256x3136.numel
  shapeCasts_S1x256x3136_S256x3136 : S1x256x3136.ShapeCasts S256x3136
  slices_S256x3136_o0_0_S256x128 : S256x3136.Slices ![0, 0] S256x128
  slices_S256x3136_o0_128_S256x128 : S256x3136.Slices ![0, 128] S256x128
  slices_S256x3136_o0_256_S256x128 : S256x3136.Slices ![0, 256] S256x128
  slices_S256x3136_o0_384_S256x128 : S256x3136.Slices ![0, 384] S256x128
  slices_S256x3136_o0_512_S256x128 : S256x3136.Slices ![0, 512] S256x128
  slices_S256x3136_o0_640_S256x128 : S256x3136.Slices ![0, 640] S256x128
  slices_S256x3136_o0_768_S256x128 : S256x3136.Slices ![0, 768] S256x128
  slices_S256x3136_o0_896_S256x128 : S256x3136.Slices ![0, 896] S256x128
  slices_S256x3136_o0_1024_S256x128 : S256x3136.Slices ![0, 1024] S256x128
  slices_S256x3136_o0_1152_S256x128 : S256x3136.Slices ![0, 1152] S256x128
  slices_S256x3136_o0_1280_S256x128 : S256x3136.Slices ![0, 1280] S256x128
  slices_S256x3136_o0_1408_S256x128 : S256x3136.Slices ![0, 1408] S256x128
  slices_S256x3136_o0_1536_S256x128 : S256x3136.Slices ![0, 1536] S256x128
  slices_S256x3136_o0_1664_S256x128 : S256x3136.Slices ![0, 1664] S256x128
  slices_S256x3136_o0_1792_S256x128 : S256x3136.Slices ![0, 1792] S256x128
  slices_S256x3136_o0_1920_S256x128 : S256x3136.Slices ![0, 1920] S256x128
  slices_S256x3136_o0_2048_S256x128 : S256x3136.Slices ![0, 2048] S256x128
  slices_S256x3136_o0_2176_S256x128 : S256x3136.Slices ![0, 2176] S256x128
  slices_S256x3136_o0_2304_S256x128 : S256x3136.Slices ![0, 2304] S256x128
  slices_S256x3136_o0_2432_S256x128 : S256x3136.Slices ![0, 2432] S256x128
  slices_S256x3136_o0_2560_S256x128 : S256x3136.Slices ![0, 2560] S256x128
  slices_S256x3136_o0_2688_S256x128 : S256x3136.Slices ![0, 2688] S256x128
  slices_S256x3136_o0_2816_S256x128 : S256x3136.Slices ![0, 2816] S256x128
  slices_S256x3136_o0_2944_S256x128 : S256x3136.Slices ![0, 2944] S256x128
  slices_S256x3136_o0_3072_S256x64 : S256x3136.Slices ![0, 3072] S256x64
  reduces_S256x128_S256 : S256x128.Reduces [1] S256
  reduces_S256x64_S256 : S256x64.Reduces [1] S256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x3136 : S256x1.Broadcasts S256x3136
  shapeCasts_S256x3136_S1x256x3136 : S256x3136.ShapeCasts S1x256x3136
  inb_S2x256x3136_S1x256x3136_1_0_0 : ∀ a, (![1, 0, 0] : Fin 3 → Nat) a + S1x256x3136.size a ≤ S2x256x3136.size a
  shapeCasts_S32x256x3136_S32x256x56x56 : S32x256x3136.ShapeCasts S32x256x56x56
  dot_S256x256_S256x1_S256x1_1_0_0_1_n_n_wf : DotDims.WF S256x256 S256x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x3136.size a ≤ S32x256x3136.size a
  hwx0_0 : ∀ i : grid0.Coords, EltTy.bits .f32 = 32 ∨ (Rect.block (s := S32x256x3136) S2x256x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x256x3136.size a ≤ S32x256x3136.size a
  hwx0_5 : ∀ i : grid0.Coords, EltTy.bits .f32 = 32 ∨ (Rect.block (s := S32x256x3136) S2x256x3136.size (cc0_transform_5 i) (hinb0_5 i)).WholeWords (EltTy.packing .f32)

variable [Facts₀]

def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

abbrev win0_0 : Pipeline.Window sig grid0 :=
  Pipeline.Window.ofSpec (Memref.whole main_v0) S2x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S2x256x3136.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S256x256 : Shape := ⟨2, ![256, 256]⟩
abbrev S256 : Shape := ⟨1, ![256]⟩
abbrev S32x256x3136 : Shape := ⟨3, ![32, 256, 3136]⟩
abbrev S_ : Shape := ⟨0, ![]⟩
abbrev S256x1 : Shape := ⟨2, ![256, 1]⟩
abbrev S1x256x3136 : Shape := ⟨3, ![1, 256, 3136]⟩
abbrev S256x3136 : Shape := ⟨2, ![256, 3136]⟩
abbrev S256x128 : Shape := ⟨2, ![256, 128]⟩
abbrev S256x64 : Shape := ⟨2, ![256, 64]⟩

abbrev nBuf : Space → Nat
  | .hbm => 23
  | .vmem => 8
  | .smem => 0
  | _ => 0

abbrev bufTy : (tb : Table) → Fin (tcTables nBuf tb) → BufTy
  | .hbm, ⟨0, _⟩ => ⟨S32x256x56x56, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S32x256x3136, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x1, .f32⟩
  | .hbm, ⟨21, _⟩ => ⟨S32x256x3136, .f32⟩
  | .hbm, ⟨22, _⟩ => ⟨S32x256x56x56, .f32⟩
  | .local _ .vmem, ⟨0, _⟩ => ⟨S1x256x3136, .f32⟩
  | .local _ .vmem, ⟨1, _⟩ => ⟨S1x256x3136, .f32⟩
  | .local _ .vmem, ⟨2, _⟩ => ⟨S256x256, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S1x256x3136, .f32⟩
  | .local _ .vmem, ⟨7, _⟩ => ⟨S1x256x3136, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x3136 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x56x56_S32x256x3136 : S32x256x56x56.ShapeCasts S32x256x3136
  bcast_S_S256 : S_.BroadcastsInDim S256 (![] : Fin 0 → Fin S256.rank)
  shapeCasts_S256_S256x1 : S256.ShapeCasts S256x1
  bcast_S_S256x256 : S_.BroadcastsInDim S256x256 (![] : Fin 0 → Fin S256x256.rank)
  inb_S1x256x3136_S1x256x3136_0_0_0 : ∀ a, (![0, 0, 0] : Fin 3 → Nat) a + S1x256x3136.size a ≤ S1x256x3136.size a
  h_S1x256x3136 : 0 < S1x256x3136.numel
  shapeCasts_S1x256x3136_S256x3136 : S1x256x3136.ShapeCasts S256x3136
  slices_S256x3136_o0_0_S256x128 : S256x3136.Slices ![0, 0] S256x128
  slices_S256x3136_o0_128_S256x128 : S256x3136.Slices ![0, 128] S256x128
  slices_S256x3136_o0_256_S256x128 : S256x3136.Slices ![0, 256] S256x128
  slices_S256x3136_o0_384_S256x128 : S256x3136.Slices ![0, 384] S256x128
  slices_S256x3136_o0_512_S256x128 : S256x3136.Slices ![0, 512] S256x128
  slices_S256x3136_o0_640_S256x128 : S256x3136.Slices ![0, 640] S256x128
  slices_S256x3136_o0_768_S256x128 : S256x3136.Slices ![0, 768] S256x128
  slices_S256x3136_o0_896_S256x128 : S256x3136.Slices ![0, 896] S256x128
  slices_S256x3136_o0_1024_S256x128 : S256x3136.Slices ![0, 1024] S256x128
  slices_S256x3136_o0_1152_S256x128 : S256x3136.Slices ![0, 1152] S256x128
  slices_S256x3136_o0_1280_S256x128 : S256x3136.Slices ![0, 1280] S256x128
  slices_S256x3136_o0_1408_S256x128 : S256x3136.Slices ![0, 1408] S256x128
  slices_S256x3136_o0_1536_S256x128 : S256x3136.Slices ![0, 1536] S256x128
  slices_S256x3136_o0_1664_S256x128 : S256x3136.Slices ![0, 1664] S256x128
  slices_S256x3136_o0_1792_S256x128 : S256x3136.Slices ![0, 1792] S256x128
  slices_S256x3136_o0_1920_S256x128 : S256x3136.Slices ![0, 1920] S256x128
  slices_S256x3136_o0_2048_S256x128 : S256x3136.Slices ![0, 2048] S256x128
  slices_S256x3136_o0_2176_S256x128 : S256x3136.Slices ![0, 2176] S256x128
  slices_S256x3136_o0_2304_S256x128 : S256x3136.Slices ![0, 2304] S256x128
  slices_S256x3136_o0_2432_S256x128 : S256x3136.Slices ![0, 2432] S256x128
  slices_S256x3136_o0_2560_S256x128 : S256x3136.Slices ![0, 2560] S256x128
  slices_S256x3136_o0_2688_S256x128 : S256x3136.Slices ![0, 2688] S256x128
  slices_S256x3136_o0_2816_S256x128 : S256x3136.Slices ![0, 2816] S256x128
  slices_S256x3136_o0_2944_S256x128 : S256x3136.Slices ![0, 2944] S256x128
  reduces_S256x128_S256 : S256x128.Reduces [1] S256
  slices_S256x3136_o0_3072_S256x64 : S256x3136.Slices ![0, 3072] S256x64
  reduces_S256x64_S256 : S256x64.Reduces [1] S256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x3136 : S256x1.Broadcasts S256x3136
  shapeCasts_S256x3136_S1x256x3136 : S256x3136.ShapeCasts S1x256x3136
  shapeCasts_S32x256x3136_S32x256x56x56 : S32x256x3136.ShapeCasts S32x256x56x56
  dot_S256x256_S256x1_S256x1_1_0_0_1_n_n_wf : DotDims.WF S256x256 S256x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3136.size a ≤ S32x256x3136.size a
  hwx0_0 : ∀ i : grid0.Coords, EltTy.bits .f32 = 32 ∨ (Rect.block (s := S32x256x3136) S1x256x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x3136.size a ≤ S32x256x3136.size a
  hwx0_5 : ∀ i : grid0.Coords, EltTy.bits .f32 = 32 ∨ (Rect.block (s := S32x256x3136) S1x256x3136.size (cc0_transform_5 i) (hinb0_5 i)).WholeWords (EltTy.packing .f32)

variable [Facts₀]

def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

abbrev win0_0 : Pipeline.Window sig grid0 :=
  Pipeline.Window.ofSpec (Memref.whole main_v0) S1x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x256x3136.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Image.lean ====
/-
  The channel-attention block of one image, and of a batch.

  For one image `v` of 256 channels by 3136 pixels: the pixel sum of every channel (the first 3072 pixels as 24
  lane chunks of 128 added up and then summed across the 128 lanes, plus the sum of the 64 last pixels), the
  256 x 256 product of the scaled weights with that column of sums, plus the bias, times the scale `s`, plus the
  shift `t`, through the logistic function: the gate of each channel. The image's result is
  `max (v * (gate * s) + t) 0`, channel by channel.  `image` is that function, with the chunks added in a chain
  from the left.  `batch` applies it to every image of a batch of 32, and is what both programs' result arrays are
  compared with.
-/
import proofs.«158284_g2000302613330175_pallasbulk_1059_7_alg».proof.Proof.Gen.ReferenceIdeal.Skeleton
import Idealize.ShloMosaic.Lib.Pipeline.Value
import Idealize.ShloMosaic.Lib.ValueIdx

noncomputable section

namespace Cert.Arm

open Idealize.ShloMosaic Idealize.ShloMosaic.ValueIdx
open Cert.ReferenceIdeal Cert.ReferenceIdeal.Gen

variable {F : FTy → Type} [FloatOps F]

/-- One image's result: `max (v * (gate * s) + t) 0`, the gate computed from the image's channel sums. -/
def image (v : Vec F S1x256x3136 .f32) (w : Vec F S256x256 .f32) (b s t : Vec F S256x1 .f32) : Vec F S1x256x3136 .f32 :=
  k0_pay1 (k0_pay2 v) (k0_pay3 v) (k0_pay4 v) w b s t s t

/-- Image `n` of a batch, as a batch of one. -/
def slab (x : Vec F S32x256x3136 .f32) (n : Fin 32) : Vec F S1x256x3136 .f32 :=
  fun z => x (ix3 (n0 := 32) (n1 := 256) (n2 := 3136) n (z 1) (z 2))

/-- Every image of the batch through `image`: entry (n, ch, p) is entry (ch, p) of image `n`'s result. -/
def batch (x : Vec F S32x256x3136 .f32) (w : Vec F S256x256 .f32) (b s t : Vec F S256x1 .f32) : Vec F S32x256x3136 .f32 :=
  fun i => image (slab x (i 0)) w b s t (ix3 (n0 := 1) (n1 := 256) (n2 := 3136) 0 (i 1) (i 2))

/-- `image` at equal arguments and equal indices. -/
theorem image_congr {v v' : Vec F S1x256x3136 .f32} {w w' : Vec F S256x256 .f32} {b b' s s' t t' : Vec F S256x1 .f32}
    {j j' : S1x256x3136.Idx} (hv : v = v') (hw : w = w') (hb : b = b') (hs : s = s') (ht : t = t') (hj : j = j') :
    image v w b s t j = image v' w' b' s' t' j' := by
  subst hv hw hb hs ht hj; rfl

/-- The batch-norm scale of each channel: `gamma * rsqrt (var + eps)`. -/
def scale (gamma var : FVec F S256 .f32) : FVec F S256 .f32 :=
  mulf gamma (Host.rsqrt (addf var (broadcastInDim S256 ![] Facts₀.bcast_S_S256 (constant S_ .f32 0x3727C5AC#32))))

/-- The batch-norm shift of each channel: `beta - mean * scale`. -/
def shift (beta mean gamma var : FVec F S256 .f32) : FVec F S256 .f32 :=
  subf beta (mulf mean (scale gamma var))

/-- The whole result array as a function of the seven argument arrays: the input viewed as 32 images of 256 channels by
    3136 pixels, the weights times the constant that turns a pixel sum into a mean, the bias, scale and shift as
    columns, `batch` of them, viewed back as 32 x 256 x 56 x 56. -/
def result (x : FVec F S32x256x56x56 .f32) (w : FVec F S256x256 .f32) (b gamma beta mean var : FVec F S256 .f32) :
    FVec F S32x256x56x56 .f32 :=
  shapeCast S32x256x56x56
    (batch (shapeCast S32x256x3136 x Facts₀.shapeCasts_S32x256x56x56_S32x256x3136)
      (mulf w (broadcastInDim S256x256 ![] Facts₀.bcast_S_S256x256 (constant S_ .f32 0x39A72F05#32)))
      (shapeCast S256x1 b Facts₀.shapeCasts_S256_S256x1)
      (shapeCast S256x1 (scale gamma var) Facts₀.shapeCasts_S256_S256x1)
      (shapeCast S256x1 (shift beta mean gamma var) Facts₀.shapeCasts_S256_S256x1))
    Facts₀.shapeCasts_S32x256x3136_S32x256x56x56

end Cert.Arm

end
-- ==== Proof.TreeSum.lean ====
/-
  The two-images-per-point program adds an image's 24 lane chunks as a balanced tree, pair by pair, where
  `Cert.Arm.image` adds them in a chain from the left. On the extended reals addition is commutative and associative,
  so the two sums are equal entry by entry, and each image's stored value in the two-image program is `image` of
  that image.
-/
import proofs.«158284_g2000302613330175_pallasbulk_1059_7_alg».proof.Proof.Gen.KernelIdeal.Skeleton
import proofs.«158284_g2000302613330175_pallasbulk_1059_7_alg».proof.Proof.Image

noncomputable section

namespace Cert.KernelIdeal.ArmValue

open Idealize.ShloMosaic Idealize.ShloMosaic.ValueIdx
open Cert.KernelIdeal Cert.KernelIdeal.Gen

/-- 24 vectors added pair by pair, then the pairs pair by pair, and so on (12, 6, 3 partial sums, the first two of
    the last three added first), are the same 24 vectors added one after the other. -/
theorem tree_eq_chain (a0 a1 a2 a3 a4 a5 a6 a7 a8 a9 a10 a11 a12 a13 a14 a15 a16 a17 a18 a19 a20 a21 a22 a23 : FVec Ideal S256x128 .f32) :
    addf (addf (addf (addf (addf a0 a1) (addf a2 a3)) (addf (addf a4 a5) (addf a6 a7))) (addf (addf (addf a8 a9) (addf a10 a11)) (addf (addf a12 a13) (addf a14 a15)))) (addf (addf (addf a16 a17) (addf a18 a19)) (addf (addf a20 a21) (addf a22 a23)))
    = addf (addf (addf (addf (addf (addf (addf (addf (addf (addf (addf (addf (addf (addf (addf (addf (addf (addf (addf (addf (addf (addf (addf a0 a1) a2) a3) a4) a5) a6) a7) a8) a9) a10) a11) a12) a13) a14) a15) a16) a17) a18) a19) a20) a21) a22) a23 := by
  funext i
  simp only [addf_apply]
  ac_rfl

/-- The first image's stored value is `image` of the first image. -/
theorem first_eq (v : Vec Ideal S1x256x3136 .f32) (w : Vec Ideal S256x256 .f32) (b s t : Vec Ideal S256x1 .f32) :
    k0_pay5 (k0_pay2 v) (k0_pay3 v) (k0_pay4 v) w b s t s t = Cert.Arm.image v w b s t := by
  unfold Cert.Arm.image Cert.ReferenceIdeal.Gen.k0_pay3 k0_pay3
  dsimp only
  rw [tree_eq_chain]
  rfl

/-- The second image's stored value is `image` of the second image. -/
theorem second_eq (v : Vec Ideal S1x256x3136 .f32) (w : Vec Ideal S256x256 .f32) (b s t : Vec Ideal S256x1 .f32) :
    k0_pay1 (k0_pay6 v) (k0_pay16 (k0_pay6 v) (k0_pay7 v) (k0_pay8 v) (k0_pay9 v) (k0_pay10 v) (k0_pay11 v) (k0_pay12 v) (k0_pay13 v) (k0_pay14 v) (k0_pay15 v) w b) s t s t = Cert.Arm.image v w b s t := by
  unfold Cert.Arm.image Cert.ReferenceIdeal.Gen.k0_pay1 Cert.ReferenceIdeal.Gen.k0_pay3 k0_pay1 k0_pay16
  dsimp only
  rw [tree_eq_chain]
  rfl

end Cert.KernelIdeal.ArmValue

end
-- ==== Proof.KerBlocks.lean ====
/-
  What one grid point of the two-images-per-point program writes back: point `t` stages images `2t` and `2t + 1` of
  the batch and the whole weight, bias, scale and shift arrays, stores `image` of the first in the first half of its
  output block and `image` of the second in the second half; so its output block is block `t` (two images) of
  `batch` of the arrays the region finds.
-/
import proofs.«158284_g2000302613330175_pallasbulk_1059_7_alg».proof.Proof.Gen.KernelIdeal.Frame
import proofs.«158284_g2000302613330175_pallasbulk_1059_7_alg».proof.Proof.TreeSum

set_option maxRecDepth 16384

noncomputable section

namespace Cert.KernelIdeal.ArmValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

theorem zero2 : (![0, 0] : Fin 2 → Nat) = fun _ => 0 := funext fun a => by fin_cases a <;> rfl

/-- The output block after the body, entry by entry: entry (k, ch, p) is entry (ch, p) of `image` of the block's
    image `k`, for `k` = 0, 1 (each of the two stores writes one image's result over its half of the block). -/
theorem out_apply (x0 : Vec Ideal S2x256x3136 .f32) (x1 : Vec Ideal S256x256 .f32) (x2 x3 x4 : Vec Ideal S256x1 .f32)
    (y : S2x256x3136.Idx) :
    out0_5 x0 x1 x2 x3 x4 y
      = Cert.Arm.image (fun z => x0 (ix3 (n0 := 2) (n1 := 256) (n2 := 3136) (y 0) (z 1) (z 2))) x1 x2 x3 x4
          (ix3 (n0 := 1) (n1 := 256) (n2 := 3136) 0 (y 1) (y 2)) := by
  unfold out0_5
  refine View.canon_apply_of_pieces
    (G := fun y : S2x256x3136.Idx => Cert.Arm.image (fun z => x0 (ix3 (n0 := 2) (n1 := 256) (n2 := 3136) (y 0) (z 1) (z 2))) x1 x2 x3 x4
      (ix3 (n0 := 1) (n1 := 256) (n2 := 3136) 0 (y 1) (y 2))) _ ?_ y (cover0_5 _ _ y)
  intro p hp x
  simp only [List.mem_cons, List.mem_nil_iff, or_false] at hp
  rcases hp with rfl | rfl
  · dsimp only
    simp only [View.ld_unit_zero (S := S256x256) zero2, View.ld_unit_zero (S := S256x1) zero2]
    rw [second_eq]
    have hx0 : (x 0).val < 1 := (x 0).isLt
    refine Cert.Arm.image_congr ?_ rfl rfl rfl rfl ?_
    · funext z
      have hz0 : (z 0).val < 1 := (z 0).isLt
      refine congrArg x0 (funext fun a => Fin.ext ?_)
      match a with
      | ⟨0, _⟩ => show 1 + 1 * (z 0).val = 1 + 1 * (x 0).val; omega
      | ⟨1, _⟩ => show 0 + 1 * (z 1).val = (z 1).val; omega
      | ⟨2, _⟩ => show 0 + 1 * (z 2).val = (z 2).val; omega
    · funext a
      refine Fin.ext ?_
      match a with
      | ⟨0, _⟩ => show (x 0).val = 0; omega
      | ⟨1, _⟩ => show (x 1).val = 0 + 1 * (x 1).val; omega
      | ⟨2, _⟩ => show (x 2).val = 0 + 1 * (x 2).val; omega
  · dsimp only
    simp only [View.ld_unit_zero (S := S256x256) zero2, View.ld_unit_zero (S := S256x1) zero2]
    rw [first_eq]
    have hx0 : (x 0).val < 1 := (x 0).isLt
    refine Cert.Arm.image_congr ?_ rfl rfl rfl rfl ?_
    · funext z
      have hz0 : (z 0).val < 1 := (z 0).isLt
      refine congrArg x0 (funext fun a => Fin.ext ?_)
      match a with
      | ⟨0, _⟩ => show 0 + 1 * (z 0).val = 0 + 1 * (x 0).val; omega
      | ⟨1, _⟩ => show 0 + 1 * (z 1).val = (z 1).val; omega
      | ⟨2, _⟩ => show 0 + 1 * (z 2).val = (z 2).val; omega
    · funext a
      refine Fin.ext ?_
      match a with
      | ⟨0, _⟩ => show (x 0).val = 0; omega
      | ⟨1, _⟩ => show (x 1).val = 0 + 1 * (x 1).val; omega
      | ⟨2, _⟩ => show (x 2).val = 0 + 1 * (x 2).val; omega

/-- The index maps over the 16 points: the image windows sit at block `t` (two images) of the batch axis, every other
    window at block zero. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- What point `t` writes back is block `t` of `batch` of the arrays as the region finds them. -/
theorem flushed_eq (c : Dev nD) (t : Fin cfg0.N) :
    (dats m 0 c).flushed 5 t = ((cfg0.win 5).blk t).view.read (Elt Ideal)
      (Cert.Arm.batch (V m c main_v0) (V m c main_v10) (V m c main_v11) (V m c main_v7) (V m c main_v8)) := by
  show (cfg0.win 5).cut (grid0.coords t) ((dats m 0 c).after 5 t) = _
  rw [after0_5]
  obtain ⟨e00, e01, e02, e50, e51, e52, e10, e11, e20, e21, e30, e31, e40, e41⟩ := idx_facts t
  funext j
  show out0_5 (fun y : S2x256x3136.Idx => V m c main_v0 (((cfg0.win 0).blk t).view.emb y))
      (fun y : S256x256.Idx => V m c main_v10 (((cfg0.win 1).blk t).view.emb y))
      (fun y : S256x1.Idx => V m c main_v11 (((cfg0.win 2).blk t).view.emb y))
      (fun y : S256x1.Idx => V m c main_v7 (((cfg0.win 3).blk t).view.emb y))
      (fun y : S256x1.Idx => V m c main_v8 (((cfg0.win 4).blk t).view.emb y)) j
    = Cert.Arm.image (Cert.Arm.slab (V m c main_v0) ((((cfg0.win 5).blk t).view.emb j) 0)) (V m c main_v10) (V m c main_v11)
        (V m c main_v7) (V m c main_v8)
        (ix3 (n0 := 1) (n1 := 256) (n2 := 3136) 0 ((((cfg0.win 5).blk t).view.emb j) 1) ((((cfg0.win 5).blk t).view.emb j) 2))
  rw [out_apply]
  have hj0 : (j 0).val < 2 := (j 0).isLt
  have hj1 : (j 1).val < 256 := (j 1).isLt
  have hj2 : (j 2).val < 3136 := (j 2).isLt
  refine Cert.Arm.image_congr ?_ ?_ ?_ ?_ ?_ ?_
  · funext z
    unfold Cert.Arm.slab
    refine congrArg (V m c main_v0) (funext fun a => Fin.ext ?_)
    match a with
    | ⟨0, _⟩ => show win0_0.index t (0 : Fin 3) * 2 + 1 * (j 0).val = win0_5.index t (0 : Fin 3) * 2 + 1 * (j 0).val; omega
    | ⟨1, _⟩ => show win0_0.index t (1 : Fin 3) * 256 + 1 * (z 1).val = (z 1).val; omega
    | ⟨2, _⟩ => show win0_0.index t (2 : Fin 3) * 3136 + 1 * (z 2).val = (z 2).val; omega
  · funext y
    refine congrArg (V m c main_v10) (funext fun a => Fin.ext ?_)
    match a with
    | ⟨0, _⟩ => show win0_1.index t (0 : Fin 2) * 256 + 1 * (y 0).val = (y 0).val; omega
    | ⟨1, _⟩ => show win0_1.index t (1 : Fin 2) * 256 + 1 * (y 1).val = (y 1).val; omega
  · funext y
    refine congrArg (V m c main_v11) (funext fun a => Fin.ext ?_)
    match a with
    | ⟨0, _⟩ => show win0_2.index t (0 : Fin 2) * 256 + 1 * (y 0).val = (y 0).val; omega
    | ⟨1, _⟩ => show win0_2.index t (1 : Fin 2) * 1 + 1 * (y 1).val = (y 1).val; omega
  · funext y
    refine congrArg (V m c main_v7) (funext fun a => Fin.ext ?_)
    match a with
    | ⟨0, _⟩ => show win0_3.index t (0 : Fin 2) * 256 + 1 * (y 0).val = (y 0).val; omega
    | ⟨1, _⟩ => show win0_3.index t (1 : Fin 2) * 1 + 1 * (y 1).val = (y 1).val; omega
  · funext y
    refine congrArg (V m c main_v8) (funext fun a => Fin.ext ?_)
    match a with
    | ⟨0, _⟩ => show win0_4.index t (0 : Fin 2) * 256 + 1 * (y 0).val = (y 0).val; omega
    | ⟨1, _⟩ => show win0_4.index t (1 : Fin 2) * 1 + 1 * (y 1).val = (y 1).val; omega
  · funext a
    refine Fin.ext ?_
    match a with
    | ⟨0, _⟩ => rfl
    | ⟨1, _⟩ => show (j 1).val = win0_5.index t (1 : Fin 3) * 256 + 1 * (j 1).val; omega
    | ⟨2, _⟩ => show (j 2).val = win0_5.index t (2 : Fin 3) * 3136 + 1 * (j 2).val; omega

end Cert.KernelIdeal.ArmValue

end
-- ==== Proof.KerRun.lean ====
/-
  The two-images-per-point program's run, read: its 16 output blocks of two images tile the result array, so the
  array ends at `batch` of the arrays the region finds; those are the host lines' values of the arguments (the input viewed as
  images, the scaled weights, the bias, scale and shift columns), and the last host line views the array back as
  32 x 256 x 56 x 56. So the program's result is `Cert.Arm.result` of its arguments.
-/
import proofs.«158284_g2000302613330175_pallasbulk_1059_7_alg».proof.Proof.KerBlocks
import Idealize.ShloMosaic.Lib.StableHlo.Run

set_option maxRecDepth 16384

noncomputable section

namespace Cert.KernelIdeal.ArmValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-- An index of the result array lies in point `t`'s block iff each coordinate lies in the block's range. -/
theorem mem_blk (t : Fin cfg0.N) (i : S32x256x3136.Idx) :
    i ∈ ((cfg0.win 5).blk t).view.set ↔ ∀ a : Fin 3, win0_5.index t a * S2x256x3136.size a ≤ (i a).val ∧ (i a).val < win0_5.index t a * S2x256x3136.size a + S2x256x3136.size a := by
  show i ∈ ((View.whole main_v12).slice (win0_5.rect t)).set ↔ _
  rw [View.set_slice_whole, Rect.mem_set_unit]
  exact Iff.rfl

/-- Entry (n, ch, p) lies in the block of point `n / 2`. -/
theorem cover (i : S32x256x3136.Idx) : ∃ t : Fin cfg0.N, (cfg0.win 5).flush t = true ∧ i ∈ ((cfg0.win 5).blk t).view.set := by
  have hi0 : (i 0).val < 32 := (i 0).isLt
  have hi1 : (i 1).val < 256 := (i 1).isLt
  have hi2 : (i 2).val < 3136 := (i 2).isLt
  have hN : (i 0).val / 2 < cfg0.N := by show (i 0).val / 2 < grid0.N; rw [N_0]; omega
  obtain ⟨-, -, -, e50, e51, e52, -⟩ := idx_facts ⟨(i 0).val / 2, hN⟩
  refine ⟨⟨(i 0).val / 2, hN⟩, flush0_5 _, ?_⟩
  rw [mem_blk]
  intro a
  match a with
  | ⟨0, _⟩ => show win0_5.index ⟨(i 0).val / 2, hN⟩ (0 : Fin 3) * 2 ≤ (i 0).val ∧ (i 0).val < win0_5.index ⟨(i 0).val / 2, hN⟩ (0 : Fin 3) * 2 + 2; simp only at e50; omega
  | ⟨1, _⟩ => show win0_5.index ⟨(i 0).val / 2, hN⟩ (1 : Fin 3) * 256 ≤ (i 1).val ∧ (i 1).val < win0_5.index ⟨(i 0).val / 2, hN⟩ (1 : Fin 3) * 256 + 256; omega
  | ⟨2, _⟩ => show win0_5.index ⟨(i 0).val / 2, hN⟩ (2 : Fin 3) * 3136 ≤ (i 2).val ∧ (i 2).val < win0_5.index ⟨(i 0).val / 2, hN⟩ (2 : Fin 3) * 3136 + 3136; omega

/-- The result array after the run is `batch` of the arrays the region finds. -/
theorem final (c : Dev nD) : (dats m 0 c).arrAt 5 cfg0.N
    = Cert.Arm.batch (F := Ideal) (V m c main_v0) (V m c main_v10) (V m c main_v11) (V m c main_v7) (V m c main_v8) :=
  (dats m 0 c).arrAt_eq_of_cover 5 _ (fun t _ => flushed_eq m c t) cover

/-! The arrays the region finds, as the host lines before it leave them. -/

theorem V_v0 (c : Dev nD) : V m c main_v0 = shapeCast S32x256x3136 (m ((c.tc : Thread nD τ).loc main_arg0)) Facts₀.shapeCasts_S32x256x56x56_S32x256x3136 := by
  show StableHlo.after hostOps0 (fun b => m (c, b)) (Proc.devRef .tc main_v0) = _
  after_results
  rfl

theorem V_v10 (c : Dev nD) : V m c main_v10 = mulf (F := Ideal) (m ((c.tc : Thread nD τ).loc main_arg1)) (broadcastInDim S256x256 ![] Facts₀.bcast_S_S256x256 (constant (F := Ideal) S_ .f32 0x39A72F05#32)) := by
  show StableHlo.after hostOps0 (fun b => m (c, b)) (Proc.devRef .tc main_v10) = _
  after_results

theorem V_v11 (c : Dev nD) : V m c main_v11 = shapeCast S256x1 (m ((c.tc : Thread nD τ).loc main_arg2)) Facts₀.shapeCasts_S256_S256x1 := by
  show StableHlo.after hostOps0 (fun b => m (c, b)) (Proc.devRef .tc main_v11) = _
  after_results
  rfl

theorem V_v7 (c : Dev nD) : V m c main_v7 = shapeCast S256x1 (Cert.Arm.scale (F := Ideal) (m ((c.tc : Thread nD τ).loc main_arg3)) (m ((c.tc : Thread nD τ).loc main_arg6))) Facts₀.shapeCasts_S256_S256x1 := by
  show StableHlo.after hostOps0 (fun b => m (c, b)) (Proc.devRef .tc main_v7) = _
  after_results
  rfl

theorem V_v8 (c : Dev nD) : V m c main_v8 = shapeCast S256x1 (Cert.Arm.shift (F := Ideal) (m ((c.tc : Thread nD τ).loc main_arg4)) (m ((c.tc : Thread nD τ).loc main_arg5)) (m ((c.tc : Thread nD τ).loc main_arg3)) (m ((c.tc : Thread nD τ).loc main_arg6))) Facts₀.shapeCasts_S256_S256x1 := by
  show StableHlo.after hostOps0 (fun b => m (c, b)) (Proc.devRef .tc main_v8) = _
  after_results
  rfl

/-- The host line after the region views the region's result array as 32 x 256 x 56 x 56. -/
theorem tail_eq (c : Dev nD) : Pipeline.afterTail₀ cfgs (dats m) 0 (V0 m) [hostOps1] c main_v13
    = shapeCast S32x256x56x56 ((dats m 0 c).arrAt 5 cfg0.N) Facts₀.shapeCasts_S32x256x3136_S32x256x56x56 := by
  unfold Pipeline.afterTail₀
  show StableHlo.after hostOps1 _ (Proc.devRef .tc main_v13) = _
  after_results
  have h12 : Pipeline.withArrays (cfgs 0).spec c (V0 m c) (fun w => (dats m 0 c).arrAt w (cfgs 0).N) (Proc.devRef .tc main_v12)
      = (dats m 0 c).arrAt 5 cfg0.N := Pipeline.withArrays_arr spec0 launch0.win.arr_inj c _ _ 5
  rw [h12]
  rfl

/-- The program's result array is `Cert.Arm.result` of its argument arrays. -/
theorem result_eq (c : Dev nD) : Pipeline.afterTail₀ cfgs (dats m) 0 (V0 m) [hostOps1] c main_v13
    = Cert.Arm.result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [tail_eq, final, V_v0, V_v10, V_v11, V_v7, V_v8]
  rfl

/-- Every weakly fair execution ends with the result array at `Cert.Arm.result` of the arguments and the arguments
    unchanged. -/
theorem run : θ_run defs (onTc (τ := τ) (main (F := Ideal))) ⟨m, fun _ => 0, ρ⟩ fun r => ∀ c : Dev nD,
      r.2.mem ((c.tc : Thread nD τ).loc main_v13) = Cert.Arm.result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).2 main_v13 (Pipeline.mem_restRefs_of main_v13 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.ArmValue

end
-- ==== Proof.RefBlocks.lean ====
/-
  What one grid point of the one-image-per-point program writes back: point `t` stages image `t` of the batch and
  the whole weight, bias, scale and shift arrays, and leaves `image` of them in its output block, which is block
  `t` of `batch` of the arrays the region finds.
-/
import proofs.«158284_g2000302613330175_pallasbulk_1059_7_alg».proof.Proof.Gen.ReferenceIdeal.Frame
import proofs.«158284_g2000302613330175_pallasbulk_1059_7_alg».proof.Proof.Image

set_option maxRecDepth 16384

noncomputable section

namespace Cert.ReferenceIdeal.ArmValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The body loads its five blocks whole and stores one value over the whole output block: that value is `image`
    of the loaded blocks. -/
theorem out_eq (x0 : Vec F S1x256x3136 .f32) (x1 : Vec F S256x256 .f32) (x2 x3 x4 : Vec F S256x1 .f32) :
    out0_5 x0 x1 x2 x3 x4 = Cert.Arm.image x0 x1 x2 x3 x4 := by
  unfold out0_5
  rw [View.canon_unit_zero zero3]
  simp only [View.ld_unit_zero (S := S1x256x3136) zero3, View.ld_unit_zero (S := S256x256) zero2,
    View.ld_unit_zero (S := S256x1) zero2]
  rfl

/-- The index maps over the 32 points: the image windows sit at block `t` of the batch axis, every other window at
    block zero. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- What point `t` writes back is block `t` of `batch` of the arrays as the region finds them. -/
theorem flushed_eq (c : Dev nD) (t : Fin cfg0.N) :
    (dats m 0 c).flushed 5 t = ((cfg0.win 5).blk t).view.read (Elt F)
      (Cert.Arm.batch (V m c main_v0) (V m c main_v10) (V m c main_v11) (V m c main_v7) (V m c main_v8)) := by
  show (cfg0.win 5).cut (grid0.coords t) ((dats m 0 c).after 5 t) = _
  rw [after0_5, out_eq]
  obtain ⟨e00, e01, e02, e50, e51, e52, e10, e11, e20, e21, e30, e31, e40, e41⟩ := idx_facts t
  funext j
  show Cert.Arm.image (fun y : S1x256x3136.Idx => V m c main_v0 (((cfg0.win 0).blk t).view.emb y))
      (fun y : S256x256.Idx => V m c main_v10 (((cfg0.win 1).blk t).view.emb y))
      (fun y : S256x1.Idx => V m c main_v11 (((cfg0.win 2).blk t).view.emb y))
      (fun y : S256x1.Idx => V m c main_v7 (((cfg0.win 3).blk t).view.emb y))
      (fun y : S256x1.Idx => V m c main_v8 (((cfg0.win 4).blk t).view.emb y)) j
    = Cert.Arm.image (Cert.Arm.slab (V m c main_v0) ((((cfg0.win 5).blk t).view.emb j) 0)) (V m c main_v10) (V m c main_v11)
        (V m c main_v7) (V m c main_v8)
        (ix3 (n0 := 1) (n1 := 256) (n2 := 3136) 0 ((((cfg0.win 5).blk t).view.emb j) 1) ((((cfg0.win 5).blk t).view.emb j) 2))
  have hj0 : (j 0).val < 1 := (j 0).isLt
  have hj1 : (j 1).val < 256 := (j 1).isLt
  have hj2 : (j 2).val < 3136 := (j 2).isLt
  refine Cert.Arm.image_congr ?_ ?_ ?_ ?_ ?_ ?_
  · funext y
    have hy0 : (y 0).val < 1 := (y 0).isLt
    unfold Cert.Arm.slab
    refine congrArg (V m c main_v0) (funext fun a => Fin.ext ?_)
    match a with
    | ⟨0, _⟩ => show win0_0.index t (0 : Fin 3) * 1 + 1 * (y 0).val = win0_5.index t (0 : Fin 3) * 1 + 1 * (j 0).val; omega
    | ⟨1, _⟩ => show win0_0.index t (1 : Fin 3) * 256 + 1 * (y 1).val = (y 1).val; omega
    | ⟨2, _⟩ => show win0_0.index t (2 : Fin 3) * 3136 + 1 * (y 2).val = (y 2).val; omega
  · funext y
    refine congrArg (V m c main_v10) (funext fun a => Fin.ext ?_)
    match a with
    | ⟨0, _⟩ => show win0_1.index t (0 : Fin 2) * 256 + 1 * (y 0).val = (y 0).val; omega
    | ⟨1, _⟩ => show win0_1.index t (1 : Fin 2) * 256 + 1 * (y 1).val = (y 1).val; omega
  · funext y
    refine congrArg (V m c main_v11) (funext fun a => Fin.ext ?_)
    match a with
    | ⟨0, _⟩ => show win0_2.index t (0 : Fin 2) * 256 + 1 * (y 0).val = (y 0).val; omega
    | ⟨1, _⟩ => show win0_2.index t (1 : Fin 2) * 1 + 1 * (y 1).val = (y 1).val; omega
  · funext y
    refine congrArg (V m c main_v7) (funext fun a => Fin.ext ?_)
    match a with
    | ⟨0, _⟩ => show win0_3.index t (0 : Fin 2) * 256 + 1 * (y 0).val = (y 0).val; omega
    | ⟨1, _⟩ => show win0_3.index t (1 : Fin 2) * 1 + 1 * (y 1).val = (y 1).val; omega
  · funext y
    refine congrArg (V m c main_v8) (funext fun a => Fin.ext ?_)
    match a with
    | ⟨0, _⟩ => show win0_4.index t (0 : Fin 2) * 256 + 1 * (y 0).val = (y 0).val; omega
    | ⟨1, _⟩ => show win0_4.index t (1 : Fin 2) * 1 + 1 * (y 1).val = (y 1).val; omega
  · funext a
    refine Fin.ext ?_
    match a with
    | ⟨0, _⟩ => show (j 0).val = 0; omega
    | ⟨1, _⟩ => show (j 1).val = win0_5.index t (1 : Fin 3) * 256 + 1 * (j 1).val; omega
    | ⟨2, _⟩ => show (j 2).val = win0_5.index t (2 : Fin 3) * 3136 + 1 * (j 2).val; omega

end Cert.ReferenceIdeal.ArmValue

end
-- ==== Proof.RefRun.lean ====
/-
  The one-image-per-point program's run, read: its 32 output blocks tile the result array, so the array ends
  at `batch` of the arrays the region finds; those are the host lines' values of the arguments (the input viewed as
  images, the scaled weights, the bias, scale and shift columns), and the last host line views the array back as
  32 x 256 x 56 x 56. So the program's result is `Cert.Arm.result` of its arguments.
-/
import proofs.«158284_g2000302613330175_pallasbulk_1059_7_alg».proof.Proof.RefBlocks
import Idealize.ShloMosaic.Lib.StableHlo.Run

set_option maxRecDepth 16384

noncomputable section

namespace Cert.ReferenceIdeal.ArmValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]
variable (m : (ℓ : Loc nD τ sig) → Buf (Elt F) ℓ) (ρ : Dev nD → PrngReg)

/-- An index of the result array lies in point `t`'s block iff each coordinate lies in the block's range. -/
theorem mem_blk (t : Fin cfg0.N) (i : S32x256x3136.Idx) :
    i ∈ ((cfg0.win 5).blk t).view.set ↔ ∀ a : Fin 3, win0_5.index t a * S1x256x3136.size a ≤ (i a).val ∧ (i a).val < win0_5.index t a * S1x256x3136.size a + S1x256x3136.size a := by
  show i ∈ ((View.whole main_v12).slice (win0_5.rect t)).set ↔ _
  rw [View.set_slice_whole, Rect.mem_set_unit]
  exact Iff.rfl

/-- Entry (n, ch, p) lies in the block of point `n`. -/
theorem cover (i : S32x256x3136.Idx) : ∃ t : Fin cfg0.N, (cfg0.win 5).flush t = true ∧ i ∈ ((cfg0.win 5).blk t).view.set := by
  have hi0 : (i 0).val < 32 := (i 0).isLt
  have hi1 : (i 1).val < 256 := (i 1).isLt
  have hi2 : (i 2).val < 3136 := (i 2).isLt
  have hN : (i 0).val < cfg0.N := by show (i 0).val < grid0.N; rw [N_0]; exact hi0
  obtain ⟨-, -, -, e50, e51, e52, -⟩ := idx_facts ⟨(i 0).val, hN⟩
  refine ⟨⟨(i 0).val, hN⟩, flush0_5 _, ?_⟩
  rw [mem_blk]
  intro a
  match a with
  | ⟨0, _⟩ => show win0_5.index ⟨(i 0).val, hN⟩ (0 : Fin 3) * 1 ≤ (i 0).val ∧ (i 0).val < win0_5.index ⟨(i 0).val, hN⟩ (0 : Fin 3) * 1 + 1; simp only at e50; omega
  | ⟨1, _⟩ => show win0_5.index ⟨(i 0).val, hN⟩ (1 : Fin 3) * 256 ≤ (i 1).val ∧ (i 1).val < win0_5.index ⟨(i 0).val, hN⟩ (1 : Fin 3) * 256 + 256; omega
  | ⟨2, _⟩ => show win0_5.index ⟨(i 0).val, hN⟩ (2 : Fin 3) * 3136 ≤ (i 2).val ∧ (i 2).val < win0_5.index ⟨(i 0).val, hN⟩ (2 : Fin 3) * 3136 + 3136; omega

/-- The result array after the run is `batch` of the arrays the region finds. -/
theorem final (c : Dev nD) : (dats m 0 c).arrAt 5 cfg0.N
    = Cert.Arm.batch (V m c main_v0) (V m c main_v10) (V m c main_v11) (V m c main_v7) (V m c main_v8) :=
  (dats m 0 c).arrAt_eq_of_cover 5 _ (fun t _ => flushed_eq m c t) cover

/-! The arrays the region finds, as the host lines before it leave them. -/

theorem V_v0 (c : Dev nD) : V m c main_v0 = shapeCast S32x256x3136 (m ((c.tc : Thread nD τ).loc main_arg0)) Facts₀.shapeCasts_S32x256x56x56_S32x256x3136 := by
  show StableHlo.after hostOps0 (fun b => m (c, b)) (Proc.devRef .tc main_v0) = _
  after_results
  rfl

theorem V_v10 (c : Dev nD) : V m c main_v10 = mulf (m ((c.tc : Thread nD τ).loc main_arg1)) (broadcastInDim S256x256 ![] Facts₀.bcast_S_S256x256 (constant S_ .f32 0x39A72F05#32)) := by
  show StableHlo.after hostOps0 (fun b => m (c, b)) (Proc.devRef .tc main_v10) = _
  after_results

theorem V_v11 (c : Dev nD) : V m c main_v11 = shapeCast S256x1 (m ((c.tc : Thread nD τ).loc main_arg2)) Facts₀.shapeCasts_S256_S256x1 := by
  show StableHlo.after hostOps0 (fun b => m (c, b)) (Proc.devRef .tc main_v11) = _
  after_results
  rfl

theorem V_v7 (c : Dev nD) : V m c main_v7 = shapeCast S256x1 (Cert.Arm.scale (m ((c.tc : Thread nD τ).loc main_arg3)) (m ((c.tc : Thread nD τ).loc main_arg6))) Facts₀.shapeCasts_S256_S256x1 := by
  show StableHlo.after hostOps0 (fun b => m (c, b)) (Proc.devRef .tc main_v7) = _
  after_results
  rfl

theorem V_v8 (c : Dev nD) : V m c main_v8 = shapeCast S256x1 (Cert.Arm.shift (m ((c.tc : Thread nD τ).loc main_arg4)) (m ((c.tc : Thread nD τ).loc main_arg5)) (m ((c.tc : Thread nD τ).loc main_arg3)) (m ((c.tc : Thread nD τ).loc main_arg6))) Facts₀.shapeCasts_S256_S256x1 := by
  show StableHlo.after hostOps0 (fun b => m (c, b)) (Proc.devRef .tc main_v8) = _
  after_results
  rfl

/-- The host line after the region views the region's result array as 32 x 256 x 56 x 56. -/
theorem tail_eq (c : Dev nD) : Pipeline.afterTail₀ cfgs (dats m) 0 (V0 m) [hostOps1] c main_v13
    = shapeCast S32x256x56x56 ((dats m 0 c).arrAt 5 cfg0.N) Facts₀.shapeCasts_S32x256x3136_S32x256x56x56 := by
  unfold Pipeline.afterTail₀
  show StableHlo.after hostOps1 _ (Proc.devRef .tc main_v13) = _
  after_results
  have h12 : Pipeline.withArrays (cfgs 0).spec c (V0 m c) (fun w => (dats m 0 c).arrAt w (cfgs 0).N) (Proc.devRef .tc main_v12)
      = (dats m 0 c).arrAt 5 cfg0.N := Pipeline.withArrays_arr spec0 launch0.win.arr_inj c _ _ 5
  rw [h12]
  rfl

/-- The program's result array is `Cert.Arm.result` of its argument arrays. -/
theorem result_eq (c : Dev nD) : Pipeline.afterTail₀ cfgs (dats m) 0 (V0 m) [hostOps1] c main_v13
    = Cert.Arm.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [tail_eq, final, V_v0, V_v10, V_v11, V_v7, V_v8]
  rfl

/-- Every weakly fair execution ends with the result array at `Cert.Arm.result` of the arguments and the arguments
    unchanged. -/
theorem run : θ_run defs (onTc (τ := τ) (main (F := F))) ⟨m, fun _ => 0, ρ⟩ fun r => ∀ c : Dev nD,
      r.2.mem ((c.tc : Thread nD τ).loc main_v13) = Cert.Arm.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).2 main_v13 (Pipeline.mem_restRefs_of main_v13 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.ReferenceIdeal.ArmValue

end
-- ==== Proof.lean ====
/-
  Channel attention over a batch of 32 images of 256 channels by 56 x 56 pixels, written twice as one fused
  pallas_call between the same host lines: the kernel handles two images per grid point and adds each image's 24
  lane chunks as a balanced tree; the reference handles one image per grid point and adds them in a chain. Per image
  both compute `max (x * (gate * s) + t) 0`, where `gate = logistic ((W * pooled + b) * s + t)`, `pooled` the channel's
  pixel sum, `W` the weights times the constant that turns the sum into a mean, and `s`, `t` the folded batch-norm
  scale and shift (`Cert.Arm.image`, `Cert.Arm.result`: Proof/Image.lean).

  On the extended reals addition is commutative and associative, so the tree and the chain are the same sum
  (Proof/TreeSum.lean); each program's output blocks tile the result array, two images or one image at a time
  (Proof/KerBlocks.lean, Proof/RefBlocks.lean), and the host lines around the region are the same in both, so both
  result arrays are `Cert.Arm.result` of the arguments (Proof/KerRun.lean, Proof/RefRun.lean). No step uses that the
  inputs are finite. The three frames are the generated ones; the idealization rewrote nothing, so `preserves` is
  `True`.
-/
import proofs.«158284_g2000302613330175_pallasbulk_1059_7_alg».proof.Defs
import proofs.«158284_g2000302613330175_pallasbulk_1059_7_alg».proof.Proof.Gen.Kernel.Frame
import proofs.«158284_g2000302613330175_pallasbulk_1059_7_alg».proof.Proof.Gen.Pre_finite_inputs
import proofs.«158284_g2000302613330175_pallasbulk_1059_7_alg».proof.Proof.KerRun
import proofs.«158284_g2000302613330175_pallasbulk_1059_7_alg».proof.Proof.RefRun

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.Gen.frame m ρ

/-- Both programs end with the result array at `Cert.Arm.result` of their arguments, which agree. -/
theorem algebraic : Cert.algebraic_KernelIdeal_ReferenceIdeal := by
  intro m ρ m' ρ' _ hagree
  refine ⟨_, Cert.KernelIdeal.ArmValue.run m ρ, ?_⟩
  refine (θ_run Cert.ReferenceIdeal.defs _ _).mono (fun r h c => ⟨(h c).1.trans ?_, (h c).2⟩)
    (Cert.ReferenceIdeal.ArmValue.run (F := Ideal) m' ρ')
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
